-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_24" .f32 0x3D2AAAAB#32 ((1 / 24 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x12x4096 : Shape := ⟨3, ![1024, 12, 4096]⟩
abbrev S_ : Shape := ⟨0, ![]⟩

class Facts : Prop where
  bcast_S_S1024x12x4096 : S_.BroadcastsInDim S1024x12x4096 (![] : Fin 0 → Fin S1024x12x4096.rank)
  reducesTo_S1024x12x4096_S_d0_1_2 : S1024x12x4096.ReducesTo [0, 1, 2] S_
  h_S_ : 0 < S_.numel

variable [Facts]

def fn {F : FTy → Type} [FloatOps F] (main_arg0 : FVec F S1024x12x4096 .f32) (main_arg1 : FVec F S1024x12x4096 .f32) : IVec S_ 1 :=
  let main_v0 : FVec F S1024x12x4096 .f32 := Host.absf main_arg0
  let main_cst : FVec F S_ .f32 := constant S_ .f32 0x7F800000#32
  let main_v1 : FVec F S1024x12x4096 .f32 := broadcastInDim S1024x12x4096 ![] bcast_S_S1024x12x4096 main_cst
  let main_v2 : IVec S1024x12x4096 1 := cmpf .olt main_v0 main_v1
  let main_c : IVec S_ 1 := constantI S_ 1 1#1
  let main_v3 : IVec S_ 1 := (fun x v => Host.reduce IntOp.andi x v reducesTo_S1024x12x4096_S_d0_1_2 h_S_) main_v2 main_c
  let main_v4 : FVec F S1024x12x4096 .f32 := Host.absf main_arg1
  let main_cst_0 : FVec F S_ .f32 := constant S_ .f32 0x7F800000#32
  let main_v5 : FVec F S1024x12x4096 .f32 := broadcastInDim S1024x12x4096 ![] bcast_S_S1024x12x4096 main_cst_0
  let main_v6 : IVec S1024x12x4096 1 := cmpf .olt main_v4 main_v5
  let main_c_1 : IVec S_ 1 := constantI S_ 1 1#1
  let main_v7 : IVec S_ 1 := (fun x v => Host.reduce IntOp.andi x v reducesTo_S1024x12x4096_S_d0_1_2 h_S_) main_v6 main_c_1
  let main_v8 : IVec S_ 1 := andi main_v3 main_v7
  let main_cst_2 : FVec F S_ .f32 := constant S_ .f32 0x00000000#32
  let main_v9 : FVec F S1024x12x4096 .f32 := broadcastInDim S1024x12x4096 ![] bcast_S_S1024x12x4096 main_cst_2
  let main_v10 : IVec S1024x12x4096 1 := cmpf .ogt main_arg0 main_v9
  let main_c_3 : IVec S_ 1 := constantI S_ 1 1#1
  let main_v11 : IVec S_ 1 := (fun x v => Host.reduce IntOp.andi x v reducesTo_S1024x12x4096_S_d0_1_2 h_S_) main_v10 main_c_3
  let main_v12 : IVec S_ 1 := andi main_v8 main_v11
  main_v12
-- ==== Kernel.lean ====
abbrev S1024x12x4096 : Shape := ⟨3, ![1024, 12, 4096]⟩
abbrev S12288x4096 : Shape := ⟨2, ![12288, 4096]⟩
abbrev S1x1 : Shape := ⟨2, ![1, 1]⟩
abbrev S256x4096 : Shape := ⟨2, ![256, 4096]⟩
abbrev S256 : Shape := ⟨1, ![256]⟩
abbrev S256x1 : Shape := ⟨2, ![256, 1]⟩
abbrev S1 : Shape := ⟨1, ![1]⟩
abbrev S_ : Shape := ⟨0, ![]⟩

abbrev nBuf : Space → Nat
  | .hbm => 6
  | .vmem => 6
  | .smem => 0
  | _ => 0

abbrev bufTy : (tb : Table) → Fin (tcTables nBuf tb) → BufTy
  | .hbm, ⟨0, _⟩ => ⟨S1024x12x4096, .f32⟩
  | .hbm, ⟨1, _⟩ => ⟨S1024x12x4096, .f32⟩
  | .hbm, ⟨2, _⟩ => ⟨S12288x4096, .f32⟩
  | .hbm, ⟨3, _⟩ => ⟨S12288x4096, .f32⟩
  | .hbm, ⟨4, _⟩ => ⟨S1x1, .f32⟩
  | .hbm, ⟨5, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x1, .f32⟩
  | .local _ .vmem, ⟨5, _⟩ => ⟨S1x1, .f32⟩
  | _, _ => ⟨S1024x12x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![48], ![false]⟩

def k0_cond2 (i : grid0.Coords) : BitVec 1 :=
  let arg0 : BitVec 32 := BitVec.ofNat 32 (i 0).val
  let c47_i32 : BitVec 32 := 47#32
  let v20 : BitVec 1 := Scalar.cmpi .eq arg0 c47_i32
  let v21 : BitVec 32 := Scalar.extui v20
  let c0_i32_9 : BitVec 32 := 0#32
  let v22 : BitVec 1 := Scalar.cmpi .ne v21 c0_i32_9
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S1024x12x4096_S12288x4096 : S1024x12x4096.ShapeCasts S12288x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S256 : S256x4096.Reduces [1] S256
  shapeCasts_S256_S256x1 : S256.ShapeCasts S256x1
  reduces_S256x1_S1 : S256x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S12288x4096.size a
  hwx0_0 : ∀ i : grid0.Coords, EltTy.bits .f32 = 32 ∨ (Rect.block (s := S12288x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S12288x4096.size a
  hwx0_1 : ∀ i : grid0.Coords, EltTy.bits .f32 = 32 ∨ (Rect.block (s := S12288x4096) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S1024x12x4096 : Shape := ⟨3, ![1024, 12, 4096]⟩
abbrev S_ : Shape := ⟨0, ![]⟩
abbrev S1024 : Shape := ⟨1, ![1024]⟩

abbrev nBuf : Space → Nat
  | .hbm => 30
  | .vmem => 0
  | .smem => 0
  | _ => 0

abbrev bufTy : (tb : Table) → Fin (tcTables nBuf tb) → BufTy
  | .hbm, ⟨0, _⟩ => ⟨S1024x12x4096, .f32⟩
  | .hbm, ⟨1, _⟩ => ⟨S1024x12x4096, .f32⟩
  | .hbm, ⟨2, _⟩ => ⟨S1024x12x4096, .f32⟩
  | .hbm, ⟨3, _⟩ => ⟨S_, .f32⟩
  | .hbm, ⟨4, _⟩ => ⟨S1024x12x4096, .f32⟩
  | .hbm, ⟨5, _⟩ => ⟨S1024x12x4096, .f32⟩
  | .hbm, ⟨6, _⟩ => ⟨S1024x12x4096, .f32⟩
  | .hbm, ⟨7, _⟩ => ⟨S1024x12x4096, .f32⟩
  | .hbm, ⟨8, _⟩ => ⟨S1024x12x4096, .f32⟩
  | .hbm, ⟨9, _⟩ => ⟨S1024x12x4096, .f32⟩
  | .hbm, ⟨10, _⟩ => ⟨S1024x12x4096, .f32⟩
  | .hbm, ⟨11, _⟩ => ⟨S_, .f32⟩
  | .hbm, ⟨12, _⟩ => ⟨S1024, .f32⟩
  | .hbm, ⟨13, _⟩ => ⟨S_, .f32⟩
  | .hbm, ⟨14, _⟩ => ⟨S1024, .f32⟩
  | .hbm, ⟨15, _⟩ => ⟨S1024, .f32⟩
  | .hbm, ⟨16, _⟩ => ⟨S1024x12x4096, .f32⟩
  | .hbm, ⟨17, _⟩ => ⟨S1024x12x4096, .f32⟩
  | .hbm, ⟨18, _⟩ => ⟨S1024x12x4096, .f32⟩
  | .hbm, ⟨19, _⟩ => ⟨S_, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S_, .f32⟩
  | .hbm, ⟨29, _⟩ => ⟨S_, .f32⟩
  | _, _ => ⟨S1024x12x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  bcast_S_S1024x12x4096 : S_.BroadcastsInDim S1024x12x4096 (![] : Fin 0 → Fin S1024x12x4096.rank)
  reducesTo_S1024x12x4096_S1024_d1_2 : S1024x12x4096.ReducesTo [1, 2] S1024
  h_S_ : 0 < S_.numel
  bcast_S_S1024 : S_.BroadcastsInDim S1024 (![] : Fin 0 → Fin S1024.rank)
  reducesTo_S1024_S_d0 : S1024.ReducesTo [0] S_

variable [Facts₀]

class Facts : Prop extends Facts₀ where

variable [Facts]
-- ==== Proof.CarryPieces.lean ====
/-
  What one grid point leaves behind, as values. The body keeps a 1×1 running total in a scratch cell:
  at the first point it stores zero and then adds the point's block sum; at every later point it adds the
  block sum to what the point before left; at the last point it also writes total · (1/24) to the output
  block. Each of these is one covering store, so the cell (and the output block) holds that store's payload.
-/
import proofs.«134486_j76003741270582_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Carry

open Cert.KernelIdeal Cert.KernelIdeal.Gen

variable {F : FTy → Type} [FloatOps F] [Named F]

/-- The zero offsets of a whole-block access. -/
theorem hz : (![0, 0] : Fin 2 → Nat) = fun _ => 0 := funext fun a => by fin_cases a <;> rfl

/-- A middle point: the cell ends at (what the point before left) + (this point's block sum). -/
theorem scratch_B (c : Dev nD) (i : grid0.Coords) (a1 : Memref sig .tc .vmem S256x4096 .f32) (h1 : a1.IsWhole)
    (a2 : Memref sig .tc .vmem S256x4096 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 x1 : Vec F S256x4096 .f32) (xs : Vec F S1x1 .f32) :
    sout0_B_0 c i a1 h1 a2 h2 a3 h3 a4 h4 hc0 hc1 x0 x1 xs = k0_pay2 x0 x1 xs := by
  unfold sout0_B_0
  rw [View.read_writes_eq_canon _ _ _ (scover0_B_0 c i a1 h1 a2 h2 a3 h3 a4 h4 hc0 hc1 x0 x1 xs)]
  unfold kernelRun0_B
  dsimp only
  sl_unfold_words
  rw [View.canon_unit_zero hz]
  simp only [View.readAt_eq_ld, h1.read_unread, h2.read_unread, h4.read_unread,
    View.ld_unit_zero (S := S256x4096) hz, View.ld_unit_zero (S := S1x1) hz]

/-- The last point: the cell ends the same way … -/
theorem scratch_C (c : Dev nD) (i : grid0.Coords) (a1 : Memref sig .tc .vmem S256x4096 .f32) (h1 : a1.IsWhole)
    (a2 : Memref sig .tc .vmem S256x4096 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S256x4096 .f32) (xs : Vec F S1x1 .f32) :
    sout0_C_0 c i a1 h1 a2 h2 a3 h3 a4 h4 hc0 hc1 x0 x1 xs = k0_pay2 x0 x1 xs := by
  unfold sout0_C_0
  rw [View.read_writes_eq_canon _ _ _ (scover0_C_0 c i a1 h1 a2 h2 a3 h3 a4 h4 hc0 hc1 x0 x1 xs)]
  unfold kernelRun0_C
  dsimp only
  sl_unfold_words
  rw [View.canon_unit_zero hz]
  simp only [View.readAt_eq_ld, h1.read_unread, h2.read_unread, h4.read_unread,
    View.ld_unit_zero (S := S256x4096) hz, View.ld_unit_zero (S := S1x1) hz]

/-- … and the output block is the scaled total. -/
theorem out_C (c : Dev nD) (i : grid0.Coords) (a1 : Memref sig .tc .vmem S256x4096 .f32) (h1 : a1.IsWhole)
    (a2 : Memref sig .tc .vmem S256x4096 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S256x4096 .f32) (xs : Vec F S1x1 .f32) :
    out0_C_2 c i a1 h1 a2 h2 a3 h3 a4 h4 hc0 hc1 x0 x1 xs = k0_pay3 (k0_pay2 x0 x1 xs) := by
  unfold out0_C_2
  rw [View.read_writes_eq_canon _ _ _ (cover0_C_2 c i a1 h1 a2 h2 a3 h3 a4 h4 hc0 hc1 x0 x1 xs)]
  unfold kernelRun0_C
  dsimp only
  sl_unfold_words
  rw [View.canon_unit_zero hz]
  simp only [View.readCov_unit_zero (S := S1x1) _ hz, View.readAt_eq_ld, h1.read_unread, h2.read_unread,
    h4.read_unread, View.ld_unit_zero (S := S256x4096) hz, View.ld_unit_zero (S := S1x1) hz]

/-- The first point: zero is stored, read back, and the block sum added to it. -/
theorem scratch_A (c : Dev nD) (i : grid0.Coords) (a1 : Memref sig .tc .vmem S256x4096 .f32) (h1 : a1.IsWhole)
    (a2 : Memref sig .tc .vmem S256x4096 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 x1 : Vec F S256x4096 .f32) :
    sout0_A_0 c i a1 h1 a2 h2 a3 h3 a4 h4 hc0 hc1 x0 x1 = k0_pay2 x0 x1 (k0_pay1 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz]
  simp only [View.readCov_unit_zero (S := S1x1) _ hz, View.readAt_eq_ld, h1.read_unread, h2.read_unread,
    View.ld_unit_zero (S := S256x4096) hz]

end Cert.KernelIdeal.Carry

end
-- ==== Proof.Spec.lean ====
/-
  The mathematics both programs share. One summand of the divergence is p · (log p − log q) on the
  extended reals; a block's contribution is the sum of the summand over the block's rows and lanes.
-/
import Idealize.ShloMosaic.PureOps.Ideal
import Idealize.ShloMosaic.Lib.ValueIdx

noncomputable section

namespace Cert.Spec

open Idealize.ShloMosaic

/-- One summand of the divergence: p · (log p − log q), on the extended reals. -/
def term (a b : EReal) : EReal := a * (Ideal.log a - Ideal.log b)

end Cert.Spec

end
-- ==== Proof.BlockSum.lean ====
/-
  The body's arithmetic at the ideal values. A point's block sum is
    ∑ over the 256 rows r, ∑ over the 4096 lanes l, of p(r,l) · (log p(r,l) − log q(r,l)):
  the lane reduction gives one number per row, the keep-dims casts only re-lay those numbers, and the row
  reduction adds them. The carried cell gets (previous cell) + (block sum); the output gets cell · (1/24).
-/
import proofs.«134486_j76003741270582_1_alg».proof.Proof.Gen.KernelIdeal.Skeleton
import proofs.«134486_j76003741270582_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

open Idealize.ShloMosaic Idealize.ShloMosaic.ValueIdx

namespace Cert.KernelIdeal.Carry

open Cert.KernelIdeal Cert.KernelIdeal.Gen

/-- The sum of the summand over one 256 × 4096 block of p and q. -/
def blockSum (x0 x1 : FVec Ideal S256x4096 .f32) : EReal :=
  ∑ r : Fin 256, ∑ l : Fin 4096, Cert.Spec.term (x0 (ix2 r l)) (x1 (ix2 r l))

/-- A column of 256 numbers laid out as a 256 × 1 array: entry (r, 0) is entry r. -/
theorem column_apply {α : Type} (x : S256.Idx → α) (h : S256.ShapeCasts S256x1) (r : Fin 256) (u : Fin 1) :
    shapeCast S256x1 x h (ix2 r u) = x (ix1 r) :=
  shapeCast_apply x h _ _ (by
    have hu : u.val = 0 := by omega
    rw [Shape.rowMajor_val_two, Shape.rowMajor_val_one]
    show r.val = r.val * 1 + u.val
    omega)

/-- The lane reduction: row r of the reduced vector is the sum of row r's 4096 lanes. -/
theorem laneSum_apply (v : FVec Ideal S256x4096 .f32) (h : S256x4096.Reduces [1] S256) (hφ : FKind.Formats .f32)
    (hacc : (0x00000000#32 : BitVec 32) = FKind.add.neutral .f32 hφ) (r : Fin 256) :
    multiReduction .add [1] S256 v 0x00000000#32 h hφ hacc (ix1 r) = ∑ l : Fin 4096, v (ix2 r l) := by
  refine (Ideal.multiReduction_add_single v 0x00000000#32 h hφ hacc (ix1 r)).trans ?_
  refine Finset.sum_congr rfl fun l _ => congrArg v ?_
  funext a; match a with | ⟨0, _⟩ => rfl | ⟨1, _⟩ => rfl

/-- The row reduction of a 256 × 1 column: its one entry is the sum of the 256 rows. -/
theorem rowSum_apply (v : FVec Ideal S256x1 .f32) (h : S256x1.Reduces [0] S1) (hφ : FKind.Formats .f32)
    (hacc : (0x00000000#32 : BitVec 32) = FKind.add.neutral .f32 hφ) (u : Fin 1) :
    multiReduction .add [0] S1 v 0x00000000#32 h hφ hacc (ix1 u) = ∑ r : Fin 256, v (ix2 r u) := by
  refine (Ideal.multiReduction_add_single v 0x00000000#32 h hφ hacc (ix1 u)).trans ?_
  refine Finset.sum_congr rfl fun r _ => congrArg v ?_
  funext a; match a with | ⟨0, _⟩ => rfl | ⟨1, _⟩ => rfl

/-- The carried cell after a point: what it held before, plus the point's block sum. -/
theorem pay2_apply (x0 x1 : FVec Ideal S256x4096 .f32) (prev : FVec Ideal S1x1 .f32) (j : S1x1.Idx) :
    k0_pay2 (F := Ideal) x0 x1 prev j = prev j + blockSum x0 x1 := by
  obtain ⟨u, w, rfl⟩ : ∃ (u w : Fin 1), j = ix2 u w := ⟨j 0, j 1, eq_ix2 j⟩
  unfold k0_pay2
  simp only [shapeCast_self]
  show prev (ix2 u w) + shapeCast S1x1 _ _ (ix2 u w) = _
  congr 1
  refine (shapeCast_a_1a_apply _ _ u w).trans ?_
  refine (rowSum_apply _ _ _ _ w).trans ?_
  unfold blockSum
  refine Finset.sum_congr rfl fun r _ => ?_
  refine (column_apply _ _ r w).trans ?_
  refine (laneSum_apply _ _ _ _ r).trans ?_
  rfl

/-- The zero the first point stores is the extended real 0. -/
theorem pay1_apply (j : S1x1.Idx) : k0_pay1 (F := Ideal) j = 0 := by
  unfold k0_pay1
  simp only [shapeCast_self]
  show Ideal.ofBits .f32 0x00000000#32 = 0
  exact Ideal.ofBits_zero_f32

/-- The kernel's named reciprocal is the rational 1/24. -/
theorem inv_24 : Named.named (F := Ideal) Cert.KernelIdeal.κ "inv_24" (φ := .f32) 0x3D2AAAAB#32 = ((1 / 24 : ℝ) : EReal) :=
  IdealRules.named_const.ideal_named_scalar _ _ _ _ rfl

/-- The output block: the carried cell times 1/24. -/
theorem pay3_apply (v : FVec Ideal S1x1 .f32) (j : S1x1.Idx) :
    k0_pay3 (F := Ideal) v j = v j * ((1 / 24 : ℝ) : EReal) := by
  unfold k0_pay3
  show v j * Named.named (F := Ideal) Cert.KernelIdeal.κ "inv_24" (φ := .f32) 0x3D2AAAAB#32 = _
  rw [inv_24]

end Cert.KernelIdeal.Carry

end
-- ==== Proof.RunningTotal.lean ====
/-
  The carried cell, point by point. After grid point n the 1×1 scratch cell holds the sum of the block sums
  of points 0 … n (the first point starts it from the stored zero); after the last point the output block
  holds that total times 1/24, and it is the only block ever written back, so the 1×1 result array ends at
  (∑ over all 48 points of the block sum) · (1/24).
-/
import proofs.«134486_j76003741270582_1_alg».proof.Proof.CarryPieces
import proofs.«134486_j76003741270582_1_alg».proof.Proof.BlockSum

noncomputable section

open Idealize.ShloMosaic Idealize.ShloMosaic.TcCoe Idealize.SL.Sem Idealize.ShloMosaic.ValueIdx
open Idealize.ShloMosaic.Pipeline (Dat)

namespace Cert.KernelIdeal.Carry

open Cert.KernelIdeal Cert.KernelIdeal.Gen

variable (m : (ℓ : Loc nD τ sig) → Buf (Elt Ideal) ℓ)

/-- The block of p a point reads, and the block of q, at their literal type. -/
abbrev pblk (c : Dev nD) (t : Fin cfg0.N) : FVec Ideal S256x4096 .f32 := iblk m c 0 t
abbrev qblk (c : Dev nD) (t : Fin cfg0.N) : FVec Ideal S256x4096 .f32 := iblk m c 1 t

/-- Point k's block sum (zero past the grid, so that it can be summed over a range). -/
def pointSum (c : Dev nD) (k : ℕ) : EReal :=
  if h : k < cfg0.N then blockSum (pblk m c ⟨k, h⟩) (qblk m c ⟨k, h⟩) else 0

theorem pointSum_of_lt (c : Dev nD) (k : ℕ) (h : k < cfg0.N) :
    pointSum m c k = blockSum (pblk m c ⟨k, h⟩) (qblk m c ⟨k, h⟩) := dif_pos h

/-- After point n the carried cell holds the block sums of points 0 … n added up. -/
theorem cell_eq (c : Dev nD) : ∀ (n : ℕ) (hn : n < cfg0.N) (j : S1x1.Idx),
    (outsAt0 m c n hn).2 j = ∑ k ∈ Finset.range (n + 1), pointSum m c k
  | 0, hn, j => by
    have h0 : (⟨0, hn⟩ : Fin cfg0.N).val % 48 = 0 := rfl
    have h1 : ¬(⟨0, hn⟩ : Fin cfg0.N).val % 48 = 47 := by dsimp only; omega
    rw [outsAt0_A m c ⟨0, hn⟩ h0 h1]
    dsimp only
    refine (congrFun (scratch_A (F := Ideal) c (grid0.coords ⟨0, hn⟩) (ms0_0 ⟨0, hn⟩) (hs0_0 ⟨0, hn⟩)
      (ms0_1 ⟨0, hn⟩) (hs0_1 ⟨0, hn⟩) (ms0_2 ⟨0, hn⟩) (hs0_2 ⟨0, hn⟩) scM0_0 (Memref.isWhole_whole _)
      ((hcond0_0 ⟨0, hn⟩).mpr h0) (fun h => h1 ((hcond0_1 ⟨0, hn⟩).mp h)) (pblk m c ⟨0, hn⟩) (qblk m c ⟨0, hn⟩)) j).trans ?_
    refine (pay2_apply (pblk m c ⟨0, hn⟩) (qblk m c ⟨0, hn⟩) (k0_pay1 (F := Ideal)) j).trans ?_
    rw [pay1_apply, zero_add, Finset.sum_range_one, pointSum_of_lt m c 0 hn]
  | n + 1, hn, j => by
    have hN : cfg0.N = 48 := N_0
    have h0 : ¬(⟨n + 1, hn⟩ : Fin cfg0.N).val % 48 = 0 := by dsimp only; omega
    have before : ∀ (k : ℕ) (hk : k < cfg0.N) (j : S1x1.Idx), k = n →
        (outsAt0 m c k hk).2 j = ∑ i ∈ Finset.range (n + 1), pointSum m c i :=
      fun k hk j e => by subst e; exact cell_eq c k hk j
    rw [Finset.sum_range_succ _ (n + 1), pointSum_of_lt m c (n + 1) hn]
    by_cases h1 : (⟨n + 1, hn⟩ : Fin cfg0.N).val % 48 = 47
    · rw [outsAt0_C m c ⟨n + 1, hn⟩ h0 h1]
      dsimp only
      refine (congrFun (scratch_C (F := Ideal) c (grid0.coords ⟨n + 1, hn⟩) (ms0_0 ⟨n + 1, hn⟩) (hs0_0 ⟨n + 1, hn⟩)
        (ms0_1 ⟨n + 1, hn⟩) (hs0_1 ⟨n + 1, hn⟩) (ms0_2 ⟨n + 1, hn⟩) (hs0_2 ⟨n + 1, hn⟩) scM0_0 (Memref.isWhole_whole _)
        (fun h => h0 ((hcond0_0 ⟨n + 1, hn⟩).mp h)) ((hcond0_1 ⟨n + 1, hn⟩).mpr h1) (pblk m c ⟨n + 1, hn⟩) (qblk m c ⟨n + 1, hn⟩)
        (outsAt0 m c (n + 1 - 1) (Nat.lt_of_le_of_lt (Nat.sub_le _ _) hn)).2) j).trans ?_
      refine (pay2_apply (pblk m c ⟨n + 1, hn⟩) (qblk m c ⟨n + 1, hn⟩) _ j).trans ?_
      rw [before (n + 1 - 1) _ j (by omega)]
    · rw [outsAt0_B m c ⟨n + 1, hn⟩ h0 h1]
      dsimp only
      refine (congrFun (scratch_B (F := Ideal) c (grid0.coords ⟨n + 1, hn⟩) (ms0_0 ⟨n + 1, hn⟩) (hs0_0 ⟨n + 1, hn⟩)
        (ms0_1 ⟨n + 1, hn⟩) (hs0_1 ⟨n + 1, hn⟩) (ms0_2 ⟨n + 1, hn⟩) (hs0_2 ⟨n + 1, hn⟩) scM0_0 (Memref.isWhole_whole _)
        (fun h => h0 ((hcond0_0 ⟨n + 1, hn⟩).mp h)) (fun h => h1 ((hcond0_1 ⟨n + 1, hn⟩).mp h)) (pblk m c ⟨n + 1, hn⟩) (qblk m c ⟨n + 1, hn⟩)
        (outsAt0 m c (n + 1 - 1) (Nat.lt_of_le_of_lt (Nat.sub_le _ _) hn)).2) j).trans ?_
      refine (pay2_apply (pblk m c ⟨n + 1, hn⟩) (qblk m c ⟨n + 1, hn⟩) _ j).trans ?_
      rw [before (n + 1 - 1) _ j (by omega)]

/-- The kernel's total: every point's block sum added up, times 1/24. -/
def total (c : Dev nD) : EReal := (∑ k ∈ Finset.range 48, pointSum m c k) * ((1 / 24 : ℝ) : EReal)

/-- At the last point the output block holds the total. -/
theorem out_last (c : Dev nD) (t : Fin cfg0.N) (ht : t.val % 48 = 47) (j : S1x1.Idx) :
    (outsAt0 m c t.val t.isLt).1 j = total m c := by
  have hN : cfg0.N = 48 := N_0
  have h0 : ¬t.val % 48 = 0 := by omega
  have hv : t.val = 47 := by have := t.isLt; omega
  rw [outsAt0_C m c t h0 ht]
  dsimp only
  refine (congrFun (out_C (F := Ideal) c (grid0.coords t) (ms0_0 t) (hs0_0 t) (ms0_1 t) (hs0_1 t) (ms0_2 t) (hs0_2 t)
    scM0_0 (Memref.isWhole_whole _) (fun h => h0 ((hcond0_0 t).mp h)) ((hcond0_1 t).mpr ht) (pblk m c t) (qblk m c t)
    (outsAt0 m c (t.val - 1) (Nat.lt_of_le_of_lt (Nat.sub_le _ _) t.isLt)).2) j).trans ?_
  refine (pay3_apply _ j).trans ?_
  refine congrArg (· * ((1 / 24 : ℝ) : EReal)) ?_
  refine (pay2_apply (pblk m c t) (qblk m c t) _ j).trans ?_
  rw [cell_eq m c (t.val - 1) _ j, show t.val - 1 + 1 = t.val by omega, show (48 : ℕ) = t.val + 1 by omega,
    Finset.sum_range_succ _ t.val, pointSum_of_lt m c t.val t.isLt]

/-- The 1×1 result array after the run. -/
abbrev result (c : Dev nD) : Buf (Elt Ideal) ((c : Thread nD τ).loc main_v2) := fun _ => total m c

/-- The one write-back (after the last point) writes the total. -/
theorem flushed_eq (c : Dev nD) (t : Fin cfg0.N) (hf : (cfg0.win 2).flush t = true) :
    (dats m 0 c).flushed 2 t = ((cfg0.win 2).blk t).view.read (Elt Ideal) (result m c) := by
  have ht : t.val % 48 = 47 := (flush0_2 t).mp hf
  funext y
  rw [View.read_apply]
  show (cfg0.win 2).cut (grid0.coords t) ((dats m 0 c).after 2 t) y = total m c
  rw [after0_2]
  exact out_last m c t ht _

/-- That block is the whole 1×1 array, so the array ends at the total. -/
theorem final_eq (c : Dev nD) : (dats m 0 c).arrAt 2 cfg0.N = result m c := by
  have hN : cfg0.N = 48 := N_0
  have h47 : 47 < cfg0.N := by omega
  refine (dats m 0 c).arrAt_eq_of_cover 2 (result m c) (flushed_eq m c) fun i => ?_
  refine ⟨⟨47, h47⟩, (flush0_2 _).mpr rfl, ?_⟩
  show i ∈ ((View.whole main_v2).slice (win0_2.rect ⟨47, h47⟩)).set
  rw [View.set_slice_whole, Rect.mem_set_unit]
  intro a
  have h0 : (i 0 : Nat) < 1 := (i 0).isLt
  have h1 : (i 1 : Nat) < 1 := (i 1).isLt
  have hblk : ∀ (t : Fin cfg0.N) (b : Fin 2), win0_2.index t b * win0_2.size b = 0 ∧ win0_2.xsize (grid0.coords t) b = 1 :=
    (by decide +kernel : ∀ (t : Fin grid0.N) (b : Fin 2), win0_2.index t b * win0_2.size b = 0 ∧ win0_2.xsize (grid0.coords t) b = 1)
  match a with
  | ⟨0, _⟩ =>
    show win0_2.index ⟨47, h47⟩ 0 * win0_2.size 0 ≤ (i 0 : Nat) ∧ (i 0 : Nat) < win0_2.index ⟨47, h47⟩ 0 * win0_2.size 0 + win0_2.xsize (grid0.coords ⟨47, h47⟩) 0
    rw [(hblk ⟨47, h47⟩ 0).1, (hblk ⟨47, h47⟩ 0).2]; omega
  | ⟨1, _⟩ =>
    show win0_2.index ⟨47, h47⟩ 1 * win0_2.size 1 ≤ (i 1 : Nat) ∧ (i 1 : Nat) < win0_2.index ⟨47, h47⟩ 1 * win0_2.size 1 + win0_2.xsize (grid0.coords ⟨47, h47⟩) 1
    rw [(hblk ⟨47, h47⟩ 1).1, (hblk ⟨47, h47⟩ 1).2]; omega

/-- The host's last line only re-lays the 1×1 array as a scalar: the result is the total. -/
theorem tail_eq (c : Dev nD) :
    Pipeline.afterTail₀ cfgs (dats m) 0 (V0 m) [hostOps1] c main_v3 = fun _ => total m c := by
  unfold Pipeline.afterTail₀
  show StableHlo.after hostOps1 _ (Proc.devRef .tc main_v3) = _
  after_results
  have hw : Pipeline.withArrays (cfgs 0).spec c (V0 m c) (fun w => (dats m 0 c).arrAt w (cfgs 0).N)
      (Proc.devRef .tc main_v2) = result m c :=
    (Pipeline.withArrays_arr spec0 launch0.win.arr_inj c (V0 m c) _ 2).trans (final_eq m c)
  rw [hw]
  rfl

/-- The idealized kernel's run, read: the scalar result is the total, the arguments are unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v3) = (fun _ => total m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Carry

end
-- ==== Proof.LibSumBlocks.lean ====
/-
  A sum over K · n consecutive positions, taken block by block: K blocks of n positions each.
-/
import Mathlib.Algebra.BigOperators.Fin
import Mathlib.Logic.Equiv.Fin.Basic

open scoped BigOperators

namespace Cert.LibSumBlocks

/-- Position r of block k, among K blocks of n positions, is position n · k + r of the K · n in all. -/
theorem pos_lt {K n : ℕ} (k : Fin K) (r : Fin n) : n * k.val + r.val < K * n := by
  have hk := k.isLt
  have hr := r.isLt
  calc n * k.val + r.val < n * k.val + n := by omega
    _ = n * (k.val + 1) := (Nat.mul_succ n k.val).symm
    _ ≤ n * K := Nat.mul_le_mul_left n hk
    _ = K * n := Nat.mul_comm n K

/-- A sum over K · n positions is the sum over the K blocks of each block's n positions
    (any commutative monoid; the position of (k, r) is n · k + r). -/
theorem sum_blocks {M : Type*} [AddCommMonoid M] (K n : ℕ) (g : Fin (K * n) → M) :
    ∑ R : Fin (K * n), g R = ∑ k : Fin K, ∑ r : Fin n, g ⟨n * k.val + r.val, pos_lt k r⟩ := by
  rw [← Equiv.sum_comp (finProdFinEquiv (m := K) (n := n)) g, Fintype.sum_prod_type]
  refine Finset.sum_congr rfl fun k _ => Finset.sum_congr rfl fun r _ => congrArg g (Fin.ext ?_)
  show r.val + n * k.val = n * k.val + r.val
  omega

end Cert.LibSumBlocks
-- ==== Proof.KernelTotal.lean ====
/-
  The kernel's total as one sum over the argument arrays. Point k reads rows 256k … 256k + 255 of the
  12288 × 4096 re-laid arrays, so the 48 block sums together are the sum of the summand over every row and
  lane of the re-laid arrays; and re-laying [1024, 12, 4096] as [12288, 4096] is a bijection of the index
  sets, so that is the sum of p · (log p − log q) over every entry of the two arguments.
-/
import proofs.«134486_j76003741270582_1_alg».proof.Proof.RunningTotal
import proofs.«134486_j76003741270582_1_alg».proof.Proof.LibSumBlocks
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Carry

open Cert.KernelIdeal Cert.KernelIdeal.Gen

variable (m : (ℓ : Loc nD τ sig) → Buf (Elt Ideal) ℓ)

/-- The two re-laid arrays as the region finds them, at their literal type. -/
abbrev p2 (c : Dev nD) : FVec Ideal S12288x4096 .f32 := V m c main_v0
abbrev q2 (c : Dev nD) : FVec Ideal S12288x4096 .f32 := V m c main_v1

/-- Both inputs' blocks at point t start at row 256 · t, lane 0. -/
theorem blk_start : ∀ t : Fin cfg0.N, (win0_0.index t 0 = t.val ∧ win0_0.index t 1 = 0)
    ∧ (win0_1.index t 0 = t.val ∧ win0_1.index t 1 = 0) :=
  (by decide +kernel : ∀ t : Fin grid0.N, (win0_0.index t 0 = t.val ∧ win0_0.index t 1 = 0)
    ∧ (win0_1.index t 0 = t.val ∧ win0_1.index t 1 = 0))

/-- Row r, lane l of the block of p at point t is row 256 t + r, lane l of the re-laid p. -/
theorem pblk_apply (c : Dev nD) (t : Fin cfg0.N) (r : Fin 256) (l : Fin 4096) (R : Fin 12288)
    (hR : R.val = 256 * t.val + r.val) : pblk m c t (ix2 r l) = p2 m c (ix2 R l) := by
  unfold pblk iblk
  rw [View.read_apply]
  show V m c main_v0 (((cfg0.win 0).blk t).view.emb (ix2 r l)) = V m c main_v0 (ix2 R l)
  congr 1
  funext a
  apply Fin.ext
  match a with
  | ⟨0, _⟩ => show win0_0.index t 0 * 256 + 1 * r.val = R.val; rw [(blk_start t).1.1]; omega
  | ⟨1, _⟩ => show win0_0.index t 1 * 4096 + 1 * l.val = l.val; rw [(blk_start t).1.2]; omega

/-- The same for q. -/
theorem qblk_apply (c : Dev nD) (t : Fin cfg0.N) (r : Fin 256) (l : Fin 4096) (R : Fin 12288)
    (hR : R.val = 256 * t.val + r.val) : qblk m c t (ix2 r l) = q2 m c (ix2 R l) := by
  unfold qblk iblk
  rw [View.read_apply]
  show V m c main_v1 (((cfg0.win 1).blk t).view.emb (ix2 r l)) = V m c main_v1 (ix2 R l)
  congr 1
  funext a
  apply Fin.ext
  match a with
  | ⟨0, _⟩ => show win0_1.index t 0 * 256 + 1 * r.val = R.val; rw [(blk_start t).2.1]; omega
  | ⟨1, _⟩ => show win0_1.index t 1 * 4096 + 1 * l.val = l.val; rw [(blk_start t).2.2]; omega

/-- The host re-lays p before the region: the re-laid array is the cast of the argument. -/
theorem p2_eq (c : Dev nD) :
    p2 m c = shapeCast S12288x4096 (m ((c.tc : Thread nD τ).loc main_arg0)) shapeCasts_S1024x12x4096_S12288x4096 := by
  show StableHlo.after hostOps0 (fun b => m (c, b)) (Proc.devRef .tc main_v0) = _
  after_results
  rfl

/-- The same for q. -/
theorem q2_eq (c : Dev nD) :
    q2 m c = shapeCast S12288x4096 (m ((c.tc : Thread nD τ).loc main_arg1)) shapeCasts_S1024x12x4096_S12288x4096 := by
  show StableHlo.after hostOps0 (fun b => m (c, b)) (Proc.devRef .tc main_v1) = _
  after_results
  rfl

/-- The 48 block sums together: the summand over every row and lane of the re-laid arrays. -/
theorem points_sum (c : Dev nD) :
    ∑ k ∈ Finset.range 48, pointSum m c k = ∑ j : S12288x4096.Idx, Cert.Spec.term (p2 m c j) (q2 m c j) := by
  have hN : cfg0.N = 48 := N_0
  rw [Finset.sum_range, sum_idx2,
    Cert.LibSumBlocks.sum_blocks 48 256 (fun R => ∑ l : Fin 4096, Cert.Spec.term (p2 m c (ix2 R l)) (q2 m c (ix2 R l)))]
  refine Finset.sum_congr rfl fun k _ => ?_
  have hk : k.val < cfg0.N := by have := k.isLt; omega
  rw [pointSum_of_lt m c k.val hk]
  unfold blockSum
  refine Finset.sum_congr rfl fun r _ => Finset.sum_congr rfl fun l _ => ?_
  rw [pblk_apply m c ⟨k.val, hk⟩ r l ⟨256 * k.val + r.val, Cert.LibSumBlocks.pos_lt k r⟩ rfl,
    qblk_apply m c ⟨k.val, hk⟩ r l ⟨256 * k.val + r.val, Cert.LibSumBlocks.pos_lt k r⟩ rfl]

/-- Re-laying is a bijection of the index sets, so the total is the sum of the summand over every entry of
    the two arguments, times 1/24. -/
theorem total_eq (c : Dev nD) :
    total m c = (∑ i : S1024x12x4096.Idx,
      Cert.Spec.term (m ((c.tc : Thread nD τ).loc main_arg0) i) (m ((c.tc : Thread nD τ).loc main_arg1) i))
        * ((1 / 24 : ℝ) : EReal) := by
  unfold total
  rw [points_sum, p2_eq, q2_eq]
  refine congrArg (· * ((1 / 24 : ℝ) : EReal)) ?_
  unfold shapeCast
  exact Equiv.sum_comp (Shape.reshapeEquiv shapeCasts_S1024x12x4096_S12288x4096)
    (fun i => Cert.Spec.term (m ((c.tc : Thread nD τ).loc main_arg0) i) (m ((c.tc : Thread nD τ).loc main_arg1) i))

end Cert.KernelIdeal.Carry

end
-- ==== Proof.Algebra.lean ====
/-
  The algebra that joins the two programs, on the extended reals.
  For a positive real p: 0.5 · (p + p) = p, exp (log p) = p and log p − log p = 0, so the reference's first
  divergence (of p against its own midpoint) has every summand 0 and its second has the summand
  p · (log p − log q) — whatever extended real log q is. Scaling by a nonnegative real constant distributes
  over sums of extended reals, infinite terms included, so 0.5 · (0/12 + S/12) summed over the batch is
  (the sum of all the S) · (1/24).
-/
import proofs.«134486_j76003741270582_1_alg».proof.Proof.Spec
import Mathlib.Data.EReal.Operations
import Mathlib.Data.EReal.Inv
import Mathlib.Analysis.SpecialFunctions.Log.Basic

noncomputable section

open scoped BigOperators

namespace Cert.Algebra

open Idealize.ShloMosaic Cert.Spec

/-- Half of a doubled real is the real. -/
theorem half_double (r : ℝ) : ((1 / 2 : ℝ) : EReal) * ((r : EReal) + (r : EReal)) = (r : EReal) := by
  rw [← EReal.coe_add, ← EReal.coe_mul]
  congr 1
  ring

/-- The logarithm of a positive real is the real logarithm. -/
theorem log_pos {r : ℝ} (hr : 0 < r) : Ideal.log (r : EReal) = ((Real.log r : ℝ) : EReal) := by
  rw [Ideal.log_coe, if_neg (not_le.mpr hr)]

/-- exp (log p) = p for a positive real p. -/
theorem exp_log_pos {r : ℝ} (hr : 0 < r) : Ideal.exp (Ideal.log (r : EReal)) = (r : EReal) := by
  rw [log_pos hr, Ideal.exp_coe, Real.exp_log hr]

/-- The first divergence's summand vanishes: exp (log p) · (log p − log p) = 0. -/
theorem self_term {r : ℝ} (hr : 0 < r) :
    Ideal.exp (Ideal.log (r : EReal)) * (Ideal.log (r : EReal) - Ideal.log (r : EReal)) = 0 := by
  rw [log_pos hr, ← EReal.coe_sub, sub_self, EReal.coe_zero, mul_zero]

/-- The second divergence's summand is p · (log p − log q). -/
theorem cross_term {r : ℝ} (hr : 0 < r) (b : EReal) :
    Ideal.exp (Ideal.log (r : EReal)) * (Ideal.log (r : EReal) - Ideal.log b) = term (r : EReal) b := by
  rw [exp_log_pos hr]
  rfl

/-- Multiplying by a nonnegative real constant distributes over a finite sum of extended reals. -/
theorem sum_mul_coe {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- One batch entry's share: 0.5 · (0 · (1/12) + (0 + S) · (1/12)) = S · (1/24). -/
theorem share (S : EReal) :
    ((1 / 2 : ℝ) : EReal) * ((0 : EReal) * ((1 / 12 : ℝ) : EReal) + ((0 : EReal) + S) * ((1 / 12 : ℝ) : EReal))
      = S * ((1 / 24 : ℝ) : EReal) := by
  rw [zero_mul, zero_add, zero_add, mul_comm, mul_assoc, ← EReal.coe_mul]
  congr 2
  norm_num

end Cert.Algebra

end
-- ==== Proof.Consts.lean ====
/-
  The float constants the two programs and the precondition spell, as the extended reals their patterns denote:
  0.5, 12.0 and +∞.
-/
import Idealize.ShloMosaic.PureOps.Ideal

noncomputable section

namespace Cert.Consts

open Idealize.ShloMosaic

/-- The pattern of 0.5 denotes the real 1/2. -/
theorem ofBits_half : Ideal.ofBits .f32 0x3F000000#32 = ((1 / 2 : ℝ) : EReal) := by
  simp [Ideal.ofBits, Ideal.ieee, -EReal.coe_mul]; norm_num

/-- The pattern of 12.0 denotes the real 12. -/
theorem ofBits_twelve : Ideal.ofBits .f32 0x41400000#32 = ((12 : ℝ) : EReal) := by
  simp [Ideal.ofBits, Ideal.ieee, -EReal.coe_mul]; norm_num

/-- The pattern of +inf denotes ⊤. -/
theorem ofBits_inf : Ideal.ofBits .f32 0x7F800000#32 = (⊤ : EReal) := by
  simp [Ideal.ofBits, Ideal.ieee]

end Cert.Consts

end
-- ==== Proof.RefTotal.lean ====
/-
  The reference, read under "every entry of p is a positive real". With m = log (0.5 · (p + p)) = log p and
  exp m = p, the divergence of p against its own midpoint has every summand 0, and the other has the
  summand p · (log p − log q). Each batch entry b contributes 0.5 · (0/12 + S_b/12), S_b the sum of the
  summand over that entry's heads and lanes; the batch sum collects every entry of the arrays exactly once,
  so the result is (the sum of the summand over every entry) · (1/24).
-/
import proofs.«134486_j76003741270582_1_alg».proof.Proof.Gen.ReferenceIdeal.Read
import proofs.«134486_j76003741270582_1_alg».proof.Proof.Algebra
import proofs.«134486_j76003741270582_1_alg».proof.Proof.Consts
import Idealize.ShloMosaic.PureOps.Ideal.Laws

noncomputable section

open Idealize.ShloMosaic Idealize.ShloMosaic.TcCoe

namespace Cert.ReferenceIdeal.RefValue

open Cert.ReferenceIdeal Cert.ReferenceIdeal.Gen Cert.ReferenceIdeal.Read Cert.Spec Cert.Algebra

/-- Every entry is a positive real. -/
def Pos (x : (⟨S1024x12x4096, .f32⟩ : BufTy).Contents (Elt Ideal)) : Prop :=
  ∀ i, ∃ r : ℝ, 0 < r ∧ x i = (r : EReal)

variable (x0 x1 : (⟨S1024x12x4096, .f32⟩ : BufTy).Contents (Elt Ideal))

/-- The summand of the divergence of p against its own midpoint is 0 at every entry. -/
theorem self_apply (hp : Pos x0) (i : S1024x12x4096.Idx) : val_main_v7 (F := Ideal) x0 i = 0 := by
  obtain ⟨r, hr, hx⟩ := hp i
  rw [val_main_v7_apply, val_main_v4_apply, val_main_v6_apply, val_main_v3_apply, val_main_v5_apply,
    val_main_v2_apply, val_main_v1_apply, val_main_cst_apply, val_main_v0_apply, hx]
  simp only [Ideal.mulf_def, Ideal.addf_def, Ideal.subf_def, Ideal.hostUnary_log_def, Ideal.hostUnary_exp_def,
    Ideal.ofBits_def]
  rw [Cert.Consts.ofBits_half, half_double, self_term hr]

/-- The summand of the divergence against q is p · (log p − log q) at every entry. -/
theorem cross_apply (hp : Pos x0) (i : S1024x12x4096.Idx) :
    val_main_v13 (F := Ideal) x0 x1 i = term (x0 i) (x1 i) := by
  obtain ⟨r, hr, hx⟩ := hp i
  rw [val_main_v13_apply, val_main_v4_apply, val_main_v12_apply, val_main_v3_apply, val_main_v11_apply,
    val_main_v2_apply, val_main_v1_apply, val_main_cst_apply, val_main_v0_apply, hx]
  simp only [Ideal.mulf_def, Ideal.addf_def, Ideal.subf_def, Ideal.hostUnary_log_def, Ideal.hostUnary_exp_def,
    Ideal.ofBits_def]
  rw [Cert.Consts.ofBits_half, half_double, cross_term hr]

/-- Per batch entry, the first divergence sums to 0. -/
theorem self_sum (hp : Pos x0) (j : S1024.Idx) : val_main_v8 (F := Ideal) x0 j = 0 := by
  unfold val_main_v8
  simp only [Host.reduceAdd, Ideal.hostReduceAdd_def]
  unfold Ideal.hostReduceAdd
  rw [Finset.sum_eq_zero (fun i _ => self_apply x0 hp i), add_zero, val_main_cst_0_apply]
  exact Ideal.ofBits_zero_f32

/-- Per batch entry b, the second divergence sums the summand over the entries of the arrays whose batch
    coordinate is b (from the initial value 0). -/
theorem cross_sum (hp : Pos x0) (j : S1024.Idx) :
    val_main_v14 (F := Ideal) x0 x1 j
      = 0 + ∑ i ∈ Finset.univ.filter (fun i => reducesTo_S1024x12x4096_S1024_d1_2.drop i = j), term (x0 i) (x1 i) := by
  unfold val_main_v14
  simp only [Host.reduceAdd, Ideal.hostReduceAdd_def]
  unfold Ideal.hostReduceAdd
  rw [Finset.sum_congr rfl (fun i _ => cross_apply x0 x1 hp i), val_main_cst_2_apply]
  exact congrArg (· + _) Ideal.ofBits_zero_f32

/-- One batch entry's share of the result. -/
theorem share_apply (hp : Pos x0) (j : S1024.Idx) :
    val_main_v19 (F := Ideal) x0 x1 j
      = (∑ i ∈ Finset.univ.filter (fun i => reducesTo_S1024x12x4096_S1024_d1_2.drop i = j), term (x0 i) (x1 i))
          * ((1 / 24 : ℝ) : EReal) := by
  rw [val_main_v19_apply, val_main_v18_apply, val_main_cst_4_apply, val_main_v17_apply, val_main_v10_apply,
    val_main_v16_apply, val_main_v9_apply, val_main_v15_apply, val_main_cst_1_apply, val_main_cst_3_apply,
    self_sum x0 hp j, cross_sum x0 x1 hp j]
  simp only [Ideal.mulf_def, Ideal.addf_def, Ideal.hostDivf_def, Ideal.ofBits_def]
  rw [Cert.Consts.ofBits_half, Cert.Consts.ofBits_twelve, Ideal.div_coe (by norm_num : (12 : ℝ) ≠ 0),
    Ideal.div_coe (by norm_num : (12 : ℝ) ≠ 0), share]

/-- The reference's result: the sum of the summand over every entry, times 1/24. -/
theorem result_eq (hp : Pos x0) :
    val_main_v20 (F := Ideal) x0 x1 = fun _ => (∑ i : S1024x12x4096.Idx, term (x0 i) (x1 i)) * ((1 / 24 : ℝ) : EReal) := by
  funext k
  rw [val_main_v20_apply, val_main_cst_5_apply, Finset.sum_congr rfl (fun j _ => share_apply x0 x1 hp j),
    ← sum_mul_coe _ _ (by norm_num : (0 : ℝ) ≤ 1 / 24), Finset.sum_fiberwise]
  show Ideal.ofBits .f32 0x00000000#32 + _ = _
  rw [Ideal.ofBits_zero_f32, zero_add]

end Cert.ReferenceIdeal.RefValue

end
-- ==== Proof.Domain.lean ====
/-
  What the precondition says of p. It is the conjunction of three "all entries" tests: |p| < +∞, |q| < +∞ and
  p > 0. An entry of p that is finite in absolute value and above zero is a positive real number.
-/
import proofs.«134486_j76003741270582_1_alg».proof.Pre_finite_inputs
import proofs.«134486_j76003741270582_1_alg».proof.Proof.Consts
import Idealize.ShloMosaic.Lib.ReduceAll
import Idealize.ShloMosaic.Lib.ValueIdx
import Idealize.ShloMosaic.PureOps.Ideal.Laws

noncomputable section

namespace Cert.Domain

open Idealize.ShloMosaic Cert.Pre_finite_inputs

variable [Cert.Pre_finite_inputs.Facts]

/-- The scalar shape has one index. -/
instance : Subsingleton S_.Idx := ⟨fun a b => funext fun d => d.elim0⟩

/-- An extended real that is finite in absolute value and above zero is a positive real. -/
theorem pos_real_of (x : EReal) (hfin : max x (-x) < ⊤) (hpos : 0 < x) : ∃ r : ℝ, 0 < r ∧ x = (r : EReal) := by
  induction x using EReal.rec with
  | bot => exact absurd hpos (by simp)
  | top => simp at hfin
  | coe r => exact ⟨r, EReal.coe_pos.mp hpos, rfl⟩

/-- Under the precondition every entry of p is a positive real. -/
theorem pos_of_pre (x0 x1 : FVec Ideal S1024x12x4096 .f32) (h : fn (F := Ideal) x0 x1 = fun _ => 1#1)
    (i : S1024x12x4096.Idx) : ∃ r : ℝ, 0 < r ∧ x0 i = (r : EReal) := by
  have h0 := congrFun h ValueIdx.ix0
  dsimp only [fn] at h0
  obtain ⟨h8, h11⟩ := IntOp.andi_eq_one.1 h0
  obtain ⟨h3, h7⟩ := IntOp.andi_eq_one.1 h8
  have e3 := Host.reduce_andi_all _ _ _ _ _ h3 i
  have e11 := Host.reduce_andi_all _ _ _ _ _ h11 i
  have f3 : Ideal.cmp .olt (max (x0 i) (-(x0 i))) (Ideal.ofBits .f32 0x7F800000#32) = 1#1 := e3
  have f11 : Ideal.cmp .ogt (x0 i) (Ideal.ofBits .f32 0x00000000#32) = 1#1 := e11
  rw [Cert.Consts.ofBits_inf] at f3
  rw [Ideal.ofBits_zero_f32] at f11
  refine pos_real_of (x0 i) ?_ ?_
  · by_contra hn
    simp [Ideal.cmp, hn] at f3
  · by_contra hn
    simp [Ideal.cmp, hn] at f11

end Cert.Domain

end
-- ==== Proof.lean ====
/-
  A one-pass divergence kernel against its jnp reference, over the extended reals.

  The kernel streams p and q (re-laid as 12288 × 4096) in 48 blocks of 256 rows, adds each block's sum of
  p · (log p − log q) into a 1×1 cell, and writes cell · (1/24) after the last block.
  The reference forms m = log (0.5 · (p + p)) and exp m, sums exp m · (m − log p) and exp m · (m − log q) over
  heads and lanes, divides each by 12, and sums 0.5 · (their sum) over the batch.
  For positive real p the midpoint 0.5 · (p + p) is p, exp (log p) = p and log p − log p = 0: the first sum
  vanishes and the second has the kernel's summand. Both results are
      (the sum of p · (log p − log q) over every entry) · (1/24),
  the reference's scaling 0.5 · (·/12) distributing over its sums because the constants are nonnegative reals.
  Positivity of p comes from the precondition (every entry finite, and p > 0: the domain of the reference's
  log p); nothing is asked of q beyond what the statement already says, since log q enters both sides alike.
-/
import proofs.«134486_j76003741270582_1_alg».proof.Defs
import proofs.«134486_j76003741270582_1_alg».proof.Proof.Gen.Kernel
import proofs.«134486_j76003741270582_1_alg».proof.Proof.Gen.Kernel.Skeleton
import proofs.«134486_j76003741270582_1_alg».proof.Proof.Gen.Kernel.Launch
import proofs.«134486_j76003741270582_1_alg».proof.Proof.Gen.Kernel.Points
import proofs.«134486_j76003741270582_1_alg».proof.Proof.Gen.Kernel.Frame
import proofs.«134486_j76003741270582_1_alg».proof.Proof.Gen.KernelIdeal
import proofs.«134486_j76003741270582_1_alg».proof.Proof.Gen.KernelIdeal.Skeleton
import proofs.«134486_j76003741270582_1_alg».proof.Proof.Gen.KernelIdeal.Launch
import proofs.«134486_j76003741270582_1_alg».proof.Proof.Gen.KernelIdeal.Points
import proofs.«134486_j76003741270582_1_alg».proof.Proof.Gen.KernelIdeal.Frame
import proofs.«134486_j76003741270582_1_alg».proof.Proof.Gen.ReferenceIdeal
import proofs.«134486_j76003741270582_1_alg».proof.Proof.Gen.ReferenceIdeal.Run
import proofs.«134486_j76003741270582_1_alg».proof.Proof.Gen.ReferenceIdeal.Read
import proofs.«134486_j76003741270582_1_alg».proof.Proof.Gen.Pre_finite_inputs
import proofs.«134486_j76003741270582_1_alg».proof.Proof.KernelTotal
import proofs.«134486_j76003741270582_1_alg».proof.Proof.RefTotal
import proofs.«134486_j76003741270582_1_alg».proof.Proof.Domain
import Idealize.ShloMosaic.Adequacy
import Idealize.ShloMosaic.Init

noncomputable section

namespace Cert.Proof

open Idealize.ShloMosaic Idealize.ShloMosaic.TcCoe Idealize.SL.Sem

/-- The word-level kernel runs and leaves p and q as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one idealization: the kernel's scale 0.5 / 12 is read as the rational 1/24. -/
theorem preserves : Cert.preserves_Kernel_KernelIdeal :=
  IdealRules.named_const.statement Cert.KernelIdeal.κ "inv_24" .f32 0x3D2AAAAB#32 ((1 / 24 : ℝ) : EReal) rfl

/-- Both programs end at (the sum of p · (log p − log q) over every entry) · (1/24). -/
theorem algebraic : Cert.algebraic_KernelIdeal_ReferenceIdeal := by
  intro m ρ m' ρ' hpre hagree
  refine ⟨fun c => fun _ => Cert.KernelIdeal.Carry.total m c, Cert.KernelIdeal.Carry.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, (hagree c).1, (hagree c).2,
    Cert.ReferenceIdeal.RefValue.result_eq _ _ (fun i => Cert.Domain.pos_of_pre _ _ (hpre c) i)]
  funext _
  exact (Cert.KernelIdeal.Carry.total_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
